-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostA.lean ====
/-
  The host operations of the kernel's program, stretch by stretch, compute what the reference's stages compute.
  Both programs build the edge list with self loops (source and destination index vectors), the degree of every node,
  its inverse square root where the degree is positive, and the product of the two end points' values along every
  edge; and, per layer, gather the rows of the dense product along the sources, scale them by that edge weight and add
  them up at the destinations. Those operations are the same text in both programs, so the buffers the kernel's
  program holds at each boundary between a host stretch and a region are the reference's stages of the same inputs,
  as soon as the dense products and bias steps the regions write agree with the reference's (the hypotheses `h30`,
  `h46` below). No region writes an index vector, the edge weights or an argument, so those are carried through
  unchanged (`Live`).
-/
import proofs.«401020_j48936857370858_1_alg».proof.Proof.Gen.KernelIdeal.Frame
import proofs.«401020_j48936857370858_1_alg».proof.Proof.RefReadP
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg) (c : Dev nD)

/-- What every later stretch and region still reads of the first stretches' results and of the arguments: the source
    and destination index vectors, the edge weights, the two biases and the second weight, in a buffer valuation `W`. -/
structure Live (W : Valuation τ sig (Elt F)) : Prop where
  v3 : W (Proc.devRef .tc main_v3) = val_main_v3 (F := F) (m ((c.tc : Thread nD τ).loc main_arg1))
  v6 : W (Proc.devRef .tc main_v6) = val_main_v6 (F := F) (m ((c.tc : Thread nD τ).loc main_arg1))
  v29 : W (Proc.devRef .tc main_v29) = val_main_v29 (F := F) (m ((c.tc : Thread nD τ).loc main_arg1))
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)

/-! ## Up to the first region -/

/-- At the first region's entry the input and the first weight are as launched. -/
theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

/-- At the first region's entry the index vectors and the edge weights are the reference's stages. -/
theorem live_W3 : Live m c (W3 m ρ c) where
  v3 := by
    show StableHlo.after hostOps0_2 (StableHlo.after hostOps0_1 (StableHlo.after hostOps0 (W0 m ρ c))) (Proc.devRef .tc main_v3) = _
    after_results_simp
    rfl
  v6 := by
    show StableHlo.after hostOps0_2 (StableHlo.after hostOps0_1 (StableHlo.after hostOps0 (W0 m ρ c))) (Proc.devRef .tc main_v6) = _
    after_results_simp
    rfl
  v29 := by
    show StableHlo.after hostOps0_2 (StableHlo.after hostOps0_1 (StableHlo.after hostOps0 (W0 m ρ c))) (Proc.devRef .tc main_v29) = _
    after_results_simp
    rfl
  a3 := by
    show StableHlo.after hostOps0_2 (StableHlo.after hostOps0_1 (StableHlo.after hostOps0 (W0 m ρ c))) (Proc.devRef .tc main_arg3) = _
    after_results_simp
  a4 := by
    show StableHlo.after hostOps0_2 (StableHlo.after hostOps0_1 (StableHlo.after hostOps0 (W0 m ρ c))) (Proc.devRef .tc main_arg4) = _
    after_results_simp
  a5 := by
    show StableHlo.after hostOps0_2 (StableHlo.after hostOps0_1 (StableHlo.after hostOps0 (W0 m ρ c))) (Proc.devRef .tc main_arg5) = _
    after_results_simp

/-! ## Through the regions: a region writes its result array only -/

theorem live_W4 : Live m c (W4 m ρ c) :=
  have h := live_W3 m ρ c
  { v3 := (W4_of_ne m ρ c main_v3 (by decide)).trans h.v3
    v6 := (W4_of_ne m ρ c main_v6 (by decide)).trans h.v6
    v29 := (W4_of_ne m ρ c main_v29 (by decide)).trans h.v29
    a3 := (W4_of_ne m ρ c main_arg3 (by decide)).trans h.a3
    a4 := (W4_of_ne m ρ c main_arg4 (by decide)).trans h.a4
    a5 := (W4_of_ne m ρ c main_arg5 (by decide)).trans h.a5 }

/-! ## The first layer's messages -/

/-- The stretch between the first two regions: the summed messages of the first layer, from the first product. -/
theorem W5_v43 (h30 : W4 m ρ c (Proc.devRef .tc main_v30) = val_main_v30 (F := F) (m ((c.tc : Thread nD τ).loc main_arg0)) (m ((c.tc : Thread nD τ).loc main_arg2))) :
    W5 m ρ c (Proc.devRef .tc main_v43) = val_main_v43 (F := F) (m ((c.tc : Thread nD τ).loc main_arg0)) (m ((c.tc : Thread nD τ).loc main_arg1)) (m ((c.tc : Thread nD τ).loc main_arg2)) := by
  have h := live_W4 m ρ c
  show StableHlo.after hostOps1 (W4 m ρ c) (Proc.devRef .tc main_v43) = _
  after_results_simp
  rw [h.v3, h.v6, h.v29, h30]
  rfl

/-- The same stretch lays the first bias out as a [1,128] row. -/
theorem W5_v44 : W5 m ρ c (Proc.devRef .tc main_v44) = shapeCast S1x128 (m ((c.tc : Thread nD τ).loc main_arg3)) shapeCasts_S128_S1x128 := by
  have h := live_W4 m ρ c
  show StableHlo.after hostOps1 (W4 m ρ c) (Proc.devRef .tc main_v44) = _
  after_results_simp
  rw [h.a3]
  rfl

theorem live_W5 : Live m c (W5 m ρ c) :=
  have h := live_W4 m ρ c
  { v3 := by
      show StableHlo.after hostOps1 (W4 m ρ c) (Proc.devRef .tc main_v3) = _
      after_results_simp; exact h.v3
    v6 := by
      show StableHlo.after hostOps1 (W4 m ρ c) (Proc.devRef .tc main_v6) = _
      after_results_simp; exact h.v6
    v29 := by
      show StableHlo.after hostOps1 (W4 m ρ c) (Proc.devRef .tc main_v29) = _
      after_results_simp; exact h.v29
    a3 := by
      show StableHlo.after hostOps1 (W4 m ρ c) (Proc.devRef .tc main_arg3) = _
      after_results_simp; exact h.a3
    a4 := by
      show StableHlo.after hostOps1 (W4 m ρ c) (Proc.devRef .tc main_arg4) = _
      after_results_simp; exact h.a4
    a5 := by
      show StableHlo.after hostOps1 (W4 m ρ c) (Proc.devRef .tc main_arg5) = _
      after_results_simp; exact h.a5 }

theorem live_W6 : Live m c (W6 m ρ c) :=
  have h := live_W5 m ρ c
  { v3 := (W6_of_ne m ρ c main_v3 (by decide)).trans h.v3
    v6 := (W6_of_ne m ρ c main_v6 (by decide)).trans h.v6
    v29 := (W6_of_ne m ρ c main_v29 (by decide)).trans h.v29
    a3 := (W6_of_ne m ρ c main_arg3 (by decide)).trans h.a3
    a4 := (W6_of_ne m ρ c main_arg4 (by decide)).trans h.a4
    a5 := (W6_of_ne m ρ c main_arg5 (by decide)).trans h.a5 }

theorem live_W7 : Live m c (W7 m ρ c) :=
  have h := live_W6 m ρ c
  { v3 := (W7_of_ne m ρ c main_v3 (by decide)).trans h.v3
    v6 := (W7_of_ne m ρ c main_v6 (by decide)).trans h.v6
    v29 := (W7_of_ne m ρ c main_v29 (by decide)).trans h.v29
    a3 := (W7_of_ne m ρ c main_arg3 (by decide)).trans h.a3
    a4 := ((W7_arr m ρ c 1).trans (((dat2 (V6 m ρ) c).arrAt_in 1 rfl _).trans (A_eq2 (V6 m ρ) c 1))).trans h.a4
    a5 := (W7_of_ne m ρ c main_arg5 (by decide)).trans h.a5 }

/-! ## The second layer's messages -/

/-- The stretch before the last region: the summed messages of the second layer, from the second product. -/
theorem W8_v59 (h46 : W7 m ρ c (Proc.devRef .tc main_v46) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W8 m ρ c (Proc.devRef .tc main_v59) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h := live_W7 m ρ c
  show StableHlo.after hostOps3 (W7 m ρ c) (Proc.devRef .tc main_v59) = _
  after_results_simp
  rw [h.v3, h.v6, h.v29, h46]
  rfl

/-- The same stretch lays the second bias out as a [1,128] row. -/
theorem W8_v60 : W8 m ρ c (Proc.devRef .tc main_v60) = shapeCast S1x128 (m ((c.tc : Thread nD τ).loc main_arg5)) shapeCasts_S128_S1x128 := by
  have h := live_W7 m ρ c
  show StableHlo.after hostOps3 (W7 m ρ c) (Proc.devRef .tc main_v60) = _
  after_results_simp
  rw [h.a5]
  rfl

end Cert.KernelIdeal.Host

end
-- ==== Proof.Spec.lean ====
/-
  The two whole-array functions the four kernel regions compute, index by index over the extended reals.
  A layer of the network is: a [100000,128] activation times a [128,128] weight (`rowsByCols`), a sum of scaled
  rows gathered along the edges (host operations shared by both programs), and a bias added along the rows
  with the negative part cut off (`biasRelu`).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![100000, 128]⟩
abbrev SW : Shape := ⟨2, ![128, 128]⟩
abbrev SB : Shape := ⟨2, ![1, 128]⟩

/-- Entry (r, q) of the product of a [100000,128] array with a [128,128] array: row r of the first against
    column q of the second, summed over the 128 shared coordinates. -/
def rowsByCols (X : SX.Idx → EReal) (W : SW.Idx → EReal) : SX.Idx → EReal :=
  fun i => ∑ k : Fin 128, X (ix2 (i 0) k) * W (ix2 k (i 1))

/-- Entry (r, q) of the bias step: the entry plus the bias of column q, and zero where that sum is negative. -/
def biasRelu (X : SX.Idx → EReal) (B : SB.Idx → EReal) : SX.Idx → EReal :=
  fun i => max (X i + B (ix2 (0 : Fin 1) (i 1))) 0

end Cert.Spec

end
-- ==== Proof.Stages.lean ====
/-
  The reference's dense stages, read index by index over the extended reals, are the two whole-array functions of
  `Spec`: each `dot_general` of a [100000,128] array with a [128,128] array is `rowsByCols`, and each
  "add the bias, broadcast along the rows, then maximum with zero" is `biasRelu` of the summed messages and the
  bias laid out as a [1,128] row.
-/
import proofs.«401020_j48936857370858_1_alg».proof.Proof.RefReadP
import proofs.«401020_j48936857370858_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.ReadP Idealize.ShloMosaic Idealize.ShloMosaic.TcCoe
open Idealize.ShloMosaic.ValueIdx
open Cert.Spec
open scoped BigOperators

/-! ## The two products -/

theorem lidx30 (i : S100000x128.Idx) (k : Fin 128) : lidx_main_v30 i k = ix2 (i 0) k :=
  funext fun a => by match a with | ⟨0, _⟩ => rfl | ⟨1, _⟩ => rfl
theorem ridx30 (i : S100000x128.Idx) (k : Fin 128) : ridx_main_v30 i k = ix2 k (i 1) :=
  funext fun a => by match a with | ⟨0, _⟩ => rfl | ⟨1, _⟩ => rfl
theorem lidx48 (i : S100000x128.Idx) (k : Fin 128) : lidx_main_v48 i k = ix2 (i 0) k :=
  funext fun a => by match a with | ⟨0, _⟩ => rfl | ⟨1, _⟩ => rfl
theorem ridx48 (i : S100000x128.Idx) (k : Fin 128) : ridx_main_v48 i k = ix2 k (i 1) :=
  funext fun a => by match a with | ⟨0, _⟩ => rfl | ⟨1, _⟩ => rfl

/-- The first layer's product of the input with its weight. -/
theorem stage_v30 (x0 : (⟨S100000x128, .f32⟩ : BufTy).Contents (Elt Ideal)) (x2 : (⟨S128x128, .f32⟩ : BufTy).Contents (Elt Ideal)) :
    val_main_v30 (F := Ideal) x0 x2 = rowsByCols x0 x2 := by
  funext i
  rw [val_main_v30_apply]
  unfold rowsByCols
  exact Finset.sum_congr rfl fun k _ => by rw [lidx30, ridx30]; rfl

/-- The second layer's product of the first layer's output with its weight. -/
theorem stage_v48 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = rowsByCols (val_main_v47 (F := Ideal) x0 x1 x2 x3) x4 := by
  funext i
  rw [val_main_v48_apply]
  unfold rowsByCols
  exact Finset.sum_congr rfl fun k _ => by rw [lidx48, ridx48]; rfl

/-! ## The two bias steps -/

/-- A [128] vector laid out as a [1,128] row, read at (0, q), is the vector at q. -/
theorem row_apply (b : S128.Idx → EReal) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_one, Shape.rowMajor_val_two]; show q.val = 0 * 128 + q.val; omega)

/-- The first layer's bias step. -/
theorem stage_v47 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (h : S128.ShapeCasts S1x128) :
    val_main_v47 (F := Ideal) x0 x1 x2 x3 = biasRelu (val_main_v43 (F := Ideal) x0 x1 x2) (shapeCast S1x128 x3 h) := by
  funext i
  rw [val_main_v47_apply, val_main_v46_apply, val_main_v45_apply, val_main_v44_apply, val_main_call1_v0_apply, val_main_call1_cst_apply]
  unfold biasRelu
  rw [row_apply x3 h (i 1)]
  show max (_ + x3 _) (Ideal.ofBits .f32 0x00000000#32) = max (_ + x3 _) 0
  rw [Ideal.ofBits_zero_f32]
  refine congrArg (fun z : EReal => max (val_main_v43 (F := Ideal) x0 x1 x2 i + z) 0) (congrArg x3 ?_)
  funext a; match a with | ⟨0, _⟩ => rfl

/-- The second layer's bias step. -/
theorem stage_v65 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (h : S128.ShapeCasts S1x128) :
    val_main_v65 (F := Ideal) x0 x1 x2 x3 x4 x5 = biasRelu (val_main_v61 (F := Ideal) x0 x1 x2 x3 x4) (shapeCast S1x128 x5 h) := by
  funext i
  rw [val_main_v65_apply, val_main_v64_apply, val_main_v63_apply, val_main_v62_apply, val_main_call2_v0_apply, val_main_call2_cst_apply]
  unfold biasRelu
  rw [row_apply x5 h (i 1)]
  show max (_ + x5 _) (Ideal.ofBits .f32 0x00000000#32) = max (_ + x5 _) 0
  rw [Ideal.ofBits_zero_f32]
  refine congrArg (fun z : EReal => max (val_main_v61 (F := Ideal) x0 x1 x2 x3 x4 i + z) 0) (congrArg x5 ?_)
  funext a; match a with | ⟨0, _⟩ => rfl

end Cert.ReferenceIdeal.Stages

end
-- ==== Proof.Mm0.lean ====
/-
  Region 0 of the kernel's program: the matrix product of one layer.
  The grid has 20 points; point t stages rows 5000 t … 5000 t + 4999 of the [100000,128] left operand and the whole
  [128,128] right operand, the body multiplies the two blocks into a zero accumulator, and the block written back is
  rows 5000 t … 5000 t + 4999 of the result. Read at one entry, over the extended reals, the body's product is the
  sum over the 128 shared coordinates of row entry times column entry (the change of float format before the product
  is the identity there, and the zero accumulator adds nothing). The 20 row blocks tile the array, so after the region
  the result array is the whole product `Spec.rowsByCols` of the two operand arrays as the region found them.
-/
import proofs.«401020_j48936857370858_1_alg».proof.Proof.Gen.KernelIdeal.Frame
import proofs.«401020_j48936857370858_1_alg».proof.Proof.Spec
import Idealize.ShloMosaic.Lib.Pipeline.Value
import Idealize.ShloMosaic.Lib.ValueIdx
import Idealize.ShloMosaic.PureOps.Ideal.Laws

noncomputable section

namespace Cert.KernelIdeal.Mm0

open Cert.KernelIdeal Cert.KernelIdeal.Gen Idealize.ShloMosaic Idealize.ShloMosaic.TcCoe Idealize.SL.Sem
open Idealize.ShloMosaic.Pipeline (Dat)
open Idealize.ShloMosaic.ValueIdx
open Cert.Spec
open scoped BigOperators

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-! ## The body's product at one entry -/

/-- The product's left operand index at output entry `i` and shared coordinate `q`: row `i 0` … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column `q`. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index: row `q` … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry `j` of its [5000,128] block: the sum over the shared coordinate of the left block's
    row entry times the right block's column entry. -/
theorem pay_apply (x0 : FVec Ideal S5000x128 .f32) (x1 : FVec Ideal S128x128 .f32) (j : S5000x128.Idx) :
    k0_pay1 x0 x1 j = ∑ k : Fin 128, x0 (ix2 (j 0) k) * x1 (ix2 k (j 1)) := by
  unfold k0_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((contrEquiv1 dot_S5000x128_S128x128_S5000x128_1_0_0_1_n_n 128 rfl rfl).symm k) = ix2 k (j 1) := funext fun a => Fin.ext (by
    match a with
    | ⟨0, _⟩ => exact (rhs_0 _ _).trans hk
    | ⟨1, _⟩ => exact rhs_1 _ _)
  rw [el, er]
  rfl

/-! ## The windows' blocks inside their arrays -/

/-- The printed index maps over the 20 grid points: windows 0 and 2 move down the rows with the point, window 1 stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows `5000 t …` of the left operand array. -/
theorem lblk_apply (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- Window 1's block at every point is the whole of the weight array. -/
theorem rblk_apply (c : Dev nD) (t : Fin cfg0.N) (x : S128x128.Idx) :
    (iblk0 V c 1 t : Vec Ideal S128x128 .f32) x = (V c main_arg2 : S128x128.Idx → Elt Ideal .f32) x := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- Entry `j` of the output window's block at point `t` sits at row `5000 t + j 0` … -/
theorem oemb_0 (t : Fin cfg0.N) (j : S5000x128.Idx) :
    ((((cfg0.win 2).blk t).view.emb j : S100000x128.Idx) 0).val = 5000 * t.val + (j 0).val := by
  obtain ⟨-, -, -, -, e4, -⟩ := idx_facts t
  show win0_2.index t 0 * 5000 + 1 * (j 0).val = _
  rw [e4]; omega
/-- … and column `j 1` of the result array. -/
theorem oemb_1 (t : Fin cfg0.N) (j : S5000x128.Idx) :
    ((((cfg0.win 2).blk t).view.emb j : S100000x128.Idx) 1).val = (j 1).val := by
  obtain ⟨-, -, -, -, -, e5⟩ := idx_facts t
  show win0_2.index t 1 * 128 + 1 * (j 1).val = _
  rw [e5]; omega

/-! ## What a point writes back, and the array after the region -/

/-- What point `t` writes back is block `t` of the whole product of the two operand arrays. -/
theorem flushed_eq (c : Dev nD) (t : Fin cfg0.N) :
    (dat0 V c).flushed 2 t = ((cfg0.win 2).blk t).view.read (Elt Ideal) (rowsByCols (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  rw [View.read_apply]
  show k0_pay1 (iblk0 V c 0 t) (iblk0 V c 1 t) j = rowsByCols (V c main_arg0) (V c main_arg2) (((cfg0.win 2).blk t).view.emb j)
  refine (pay_apply (iblk0 V c 0 t) (iblk0 V c 1 t) j).trans ?_
  unfold rowsByCols
  refine Finset.sum_congr rfl fun k _ => ?_
  refine congrArg₂ (· * ·) ?_ ?_
  · exact lblk_apply V c t (ix2 (j 0) k) (ix2 ((((cfg0.win 2).blk t).view.emb j : S100000x128.Idx) 0) k) (oemb_0 t j) rfl
  · refine (rblk_apply V c t (ix2 k (j 1))).trans ?_
    show V c main_arg2 _ = V c main_arg2 _
    congr 1
    funext a
    apply Fin.ext
    match a with
    | ⟨0, _⟩ => rfl
    | ⟨1, _⟩ => exact (oemb_1 t j).symm

/-- An entry of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result array is in the block of the point its row falls to, `row / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 128 ≤ (i 1).val ∧ (i 1).val < win0_2.index ⟨(i 0).val / 5000, hlt⟩ 1 * 128 + 128
    rw [e5]; omega

/-- After the region the result array is the whole product of the two operand arrays. -/
theorem final (c : Dev nD) :
    (dat0 V c).arrAt 2 cfg0.N = rowsByCols (V c main_arg0) (V c main_arg2) :=
  (dat0 V c).arrAt_eq_of_cover 2 (rowsByCols (V c main_arg0) (V c main_arg2)) (fun t _ => flushed_eq V c t) cover

end Cert.KernelIdeal.Mm0

end
-- ==== Proof.Br1.lean ====
/-
  Region 1 of the kernel's program: the bias step of one layer.
  The grid has 20 points; point t stages rows 5000 t … 5000 t + 4999 of the [100000,128] array of summed messages and
  the whole [1,128] bias row; the body adds the bias row to every row of the block and takes the maximum with zero; the
  block written back is rows 5000 t … 5000 t + 4999 of the result. Read at one entry over the extended reals this is
  `max (x + b) 0` with b the bias of the entry's column. The 20 row blocks tile the array, so after the region the
  result array is `Spec.biasRelu` of the two operand arrays as the region found them.
-/
import proofs.«401020_j48936857370858_1_alg».proof.Proof.Gen.KernelIdeal.Frame
import proofs.«401020_j48936857370858_1_alg».proof.Proof.Spec
import Idealize.ShloMosaic.Lib.Pipeline.Value
import Idealize.ShloMosaic.Lib.ValueIdx
import Idealize.ShloMosaic.PureOps.Ideal.Laws

noncomputable section

namespace Cert.KernelIdeal.Br1

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-! ## The body's value at one entry -/

/-- What the body stores, at entry `j` of its [5000,128] block: the block's entry plus the bias of column `j 1`,
    and zero where that is negative. -/
theorem pay_apply (x0 : FVec Ideal S5000x128 .f32) (x1 : FVec Ideal S1x128 .f32) (j : S5000x128.Idx) :
    k1_pay1 x0 x1 j = max (x0 j + x1 (ix2 (0 : Fin 1) (j 1))) 0 := by
  unfold k1_pay1
  simp only [shapeCast_self]
  show max (x0 j + broadcastTo S5000x128 x1 broadcasts_S1x128_S5000x128 j) (Ideal.ofBits .f32 0x00000000#32) = _
  rw [Ideal.ofBits_zero_f32, broadcastTo_apply x1 broadcasts_S1x128_S5000x128 j (ix2 (0 : Fin 1) (j 1)) ?_]
  intro a
  match a with
  | ⟨0, _⟩ => rfl
  | ⟨1, _⟩ => rfl

/-! ## The windows' blocks inside their arrays -/

/-- The printed index maps over the 20 grid points: windows 0 and 2 move down the rows with the point, window 1 stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point `t` is rows `5000 t …` of the array of summed messages. -/
theorem lblk_apply (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v43 : S100000x128.Idx → Elt Ideal .f32) i := by
  obtain ⟨e0, e1, -⟩ := idx_facts t
  unfold iblk1
  rw [View.read_apply]
  show V c main_v43 _ = V c main_v43 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- Window 1's block at every point is the whole bias row. -/
theorem bblk_apply (c : Dev nD) (t : Fin cfg1.N) (x : S1x128.Idx) :
    (iblk1 V c 1 t : Vec Ideal S1x128 .f32) x = (V c main_v44 : S1x128.Idx → Elt Ideal .f32) x := by
  obtain ⟨-, -, e2, e3, -⟩ := idx_facts t
  unfold iblk1
  rw [View.read_apply]
  show V c main_v44 _ = V c main_v44 _
  congr 1
  funext a
  apply Fin.ext
  match a with
  | ⟨0, _⟩ => show win1_1.index t 0 * 1 + 1 * (x 0).val = (x 0).val; rw [e2]; omega
  | ⟨1, _⟩ => show win1_1.index t 1 * 128 + 1 * (x 1).val = (x 1).val; rw [e3]; omega

/-- Entry `j` of the output window's block at point `t` sits at row `5000 t + j 0` … -/
theorem oemb_0 (t : Fin cfg1.N) (j : S5000x128.Idx) :
    ((((cfg1.win 2).blk t).view.emb j : S100000x128.Idx) 0).val = 5000 * t.val + (j 0).val := by
  obtain ⟨-, -, -, -, e4, -⟩ := idx_facts t
  show win1_2.index t 0 * 5000 + 1 * (j 0).val = _
  rw [e4]; omega
/-- … and column `j 1` of the result array. -/
theorem oemb_1 (t : Fin cfg1.N) (j : S5000x128.Idx) :
    ((((cfg1.win 2).blk t).view.emb j : S100000x128.Idx) 1).val = (j 1).val := by
  obtain ⟨-, -, -, -, -, e5⟩ := idx_facts t
  show win1_2.index t 1 * 128 + 1 * (j 1).val = _
  rw [e5]; omega

/-! ## What a point writes back, and the array after the region -/

/-- What point `t` writes back is block `t` of the bias step applied to the two operand arrays. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  rw [View.read_apply]
  show k1_pay1 (iblk1 V c 0 t) (iblk1 V c 1 t) j = biasRelu (V c main_v43) (V c main_v44) (((cfg1.win 2).blk t).view.emb j)
  refine (pay_apply (iblk1 V c 0 t) (iblk1 V c 1 t) j).trans ?_
  unfold biasRelu
  refine congrArg (fun z : EReal => max z 0) ?_
  refine congrArg₂ (· + ·) ?_ ?_
  · exact lblk_apply V c t j (((cfg1.win 2).blk t).view.emb j) (oemb_0 t j) (oemb_1 t j)
  · refine (bblk_apply V c t (ix2 (0 : Fin 1) (j 1))).trans ?_
    show V c main_v44 _ = V c main_v44 _
    congr 1
    funext a
    apply Fin.ext
    match a with
    | ⟨0, _⟩ => rfl
    | ⟨1, _⟩ => exact (oemb_1 t j).symm

/-- An entry of the result array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every entry of the result array is in the block of the point its row falls to, `row / 5000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ 0 * 5000 ≤ (i 0).val ∧ (i 0).val < win1_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ 1 * 128 ≤ (i 1).val ∧ (i 1).val < win1_2.index ⟨(i 0).val / 5000, hlt⟩ 1 * 128 + 128
    rw [e5]; omega

/-- After the region the result array is the bias step applied to the two operand arrays. -/
theorem final (c : Dev nD) :
    (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.Br1

end
-- ==== Proof.Mm2.lean ====
/-
  Region 2 of the kernel's program: the matrix product of one layer.
  The grid has 20 points; point t stages rows 5000 t … 5000 t + 4999 of the [100000,128] left operand and the whole
  [128,128] right operand, the body multiplies the two blocks into a zero accumulator, and the block written back is
  rows 5000 t … 5000 t + 4999 of the result. Read at one entry, over the extended reals, the body's product is the
  sum over the 128 shared coordinates of row entry times column entry (the change of float format before the product
  is the identity there, and the zero accumulator adds nothing). The 20 row blocks tile the array, so after the region
  the result array is the whole product `Spec.rowsByCols` of the two operand arrays as the region found them.
-/
import proofs.«401020_j48936857370858_1_alg».proof.Proof.Gen.KernelIdeal.Frame
import proofs.«401020_j48936857370858_1_alg».proof.Proof.Spec
import Idealize.ShloMosaic.Lib.Pipeline.Value
import Idealize.ShloMosaic.Lib.ValueIdx
import Idealize.ShloMosaic.PureOps.Ideal.Laws

noncomputable section

namespace Cert.KernelIdeal.Mm2

open Cert.KernelIdeal Cert.KernelIdeal.Gen Idealize.ShloMosaic Idealize.ShloMosaic.TcCoe Idealize.SL.Sem
open Idealize.ShloMosaic.Pipeline (Dat)
open Idealize.ShloMosaic.ValueIdx
open Cert.Spec
open scoped BigOperators

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-! ## The body's product at one entry -/

/-- The product's left operand index at output entry `i` and shared coordinate `q`: row `i 0` … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column `q`. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index: row `q` … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry `j` of its [5000,128] block: the sum over the shared coordinate of the left block's
    row entry times the right block's column entry. -/
theorem pay_apply (x0 : FVec Ideal S5000x128 .f32) (x1 : FVec Ideal S128x128 .f32) (j : S5000x128.Idx) :
    k2_pay1 x0 x1 j = ∑ k : Fin 128, x0 (ix2 (j 0) k) * x1 (ix2 k (j 1)) := by
  unfold k2_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((contrEquiv1 dot_S5000x128_S128x128_S5000x128_1_0_0_1_n_n 128 rfl rfl).symm k) = ix2 k (j 1) := funext fun a => Fin.ext (by
    match a with
    | ⟨0, _⟩ => exact (rhs_0 _ _).trans hk
    | ⟨1, _⟩ => exact rhs_1 _ _)
  rw [el, er]
  rfl

/-! ## The windows' blocks inside their arrays -/

/-- The printed index maps over the 20 grid points: windows 0 and 2 move down the rows with the point, window 1 stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point `t` is rows `5000 t …` of the left operand array. -/
theorem lblk_apply (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v45 : S100000x128.Idx → Elt Ideal .f32) i := by
  obtain ⟨e0, e1, -⟩ := idx_facts t
  unfold iblk2
  rw [View.read_apply]
  show V c main_v45 _ = V c main_v45 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- Window 1's block at every point is the whole of the weight array. -/
theorem rblk_apply (c : Dev nD) (t : Fin cfg2.N) (x : S128x128.Idx) :
    (iblk2 V c 1 t : Vec Ideal S128x128 .f32) x = (V c main_arg4 : S128x128.Idx → Elt Ideal .f32) x := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- Entry `j` of the output window's block at point `t` sits at row `5000 t + j 0` … -/
theorem oemb_0 (t : Fin cfg2.N) (j : S5000x128.Idx) :
    ((((cfg2.win 2).blk t).view.emb j : S100000x128.Idx) 0).val = 5000 * t.val + (j 0).val := by
  obtain ⟨-, -, -, -, e4, -⟩ := idx_facts t
  show win2_2.index t 0 * 5000 + 1 * (j 0).val = _
  rw [e4]; omega
/-- … and column `j 1` of the result array. -/
theorem oemb_1 (t : Fin cfg2.N) (j : S5000x128.Idx) :
    ((((cfg2.win 2).blk t).view.emb j : S100000x128.Idx) 1).val = (j 1).val := by
  obtain ⟨-, -, -, -, -, e5⟩ := idx_facts t
  show win2_2.index t 1 * 128 + 1 * (j 1).val = _
  rw [e5]; omega

/-! ## What a point writes back, and the array after the region -/

/-- What point `t` writes back is block `t` of the whole product of the two operand arrays. -/
theorem flushed_eq (c : Dev nD) (t : Fin cfg2.N) :
    (dat2 V c).flushed 2 t = ((cfg2.win 2).blk t).view.read (Elt Ideal) (rowsByCols (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  rw [View.read_apply]
  show k2_pay1 (iblk2 V c 0 t) (iblk2 V c 1 t) j = rowsByCols (V c main_v45) (V c main_arg4) (((cfg2.win 2).blk t).view.emb j)
  refine (pay_apply (iblk2 V c 0 t) (iblk2 V c 1 t) j).trans ?_
  unfold rowsByCols
  refine Finset.sum_congr rfl fun k _ => ?_
  refine congrArg₂ (· * ·) ?_ ?_
  · exact lblk_apply V c t (ix2 (j 0) k) (ix2 ((((cfg2.win 2).blk t).view.emb j : S100000x128.Idx) 0) k) (oemb_0 t j) rfl
  · refine (rblk_apply V c t (ix2 k (j 1))).trans ?_
    show V c main_arg4 _ = V c main_arg4 _
    congr 1
    funext a
    apply Fin.ext
    match a with
    | ⟨0, _⟩ => rfl
    | ⟨1, _⟩ => exact (oemb_1 t j).symm

/-- An entry of the result array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every entry of the result array is in the block of the point its row falls to, `row / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ 0 * 5000 ≤ (i 0).val ∧ (i 0).val < win2_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ 1 * 128 ≤ (i 1).val ∧ (i 1).val < win2_2.index ⟨(i 0).val / 5000, hlt⟩ 1 * 128 + 128
    rw [e5]; omega

/-- After the region the result array is the whole product of the two operand arrays. -/
theorem final (c : Dev nD) :
    (dat2 V c).arrAt 2 cfg2.N = rowsByCols (V c main_v45) (V c main_arg4) :=
  (dat2 V c).arrAt_eq_of_cover 2 (rowsByCols (V c main_v45) (V c main_arg4)) (fun t _ => flushed_eq V c t) cover

end Cert.KernelIdeal.Mm2

end
-- ==== Proof.Br3.lean ====
/-
  Region 3 of the kernel's program: the bias step of one layer.
  The grid has 20 points; point t stages rows 5000 t … 5000 t + 4999 of the [100000,128] array of summed messages and
  the whole [1,128] bias row; the body adds the bias row to every row of the block and takes the maximum with zero; the
  block written back is rows 5000 t … 5000 t + 4999 of the result. Read at one entry over the extended reals this is
  `max (x + b) 0` with b the bias of the entry's column. The 20 row blocks tile the array, so after the region the
  result array is `Spec.biasRelu` of the two operand arrays as the region found them.
-/
import proofs.«401020_j48936857370858_1_alg».proof.Proof.Gen.KernelIdeal.Frame
import proofs.«401020_j48936857370858_1_alg».proof.Proof.Spec
import Idealize.ShloMosaic.Lib.Pipeline.Value
import Idealize.ShloMosaic.Lib.ValueIdx
import Idealize.ShloMosaic.PureOps.Ideal.Laws

noncomputable section

namespace Cert.KernelIdeal.Br3

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-! ## The body's value at one entry -/

/-- What the body stores, at entry `j` of its [5000,128] block: the block's entry plus the bias of column `j 1`,
    and zero where that is negative. -/
theorem pay_apply (x0 : FVec Ideal S5000x128 .f32) (x1 : FVec Ideal S1x128 .f32) (j : S5000x128.Idx) :
    k3_pay1 x0 x1 j = max (x0 j + x1 (ix2 (0 : Fin 1) (j 1))) 0 := by
  unfold k3_pay1
  simp only [shapeCast_self]
  show max (x0 j + broadcastTo S5000x128 x1 broadcasts_S1x128_S5000x128 j) (Ideal.ofBits .f32 0x00000000#32) = _
  rw [Ideal.ofBits_zero_f32, broadcastTo_apply x1 broadcasts_S1x128_S5000x128 j (ix2 (0 : Fin 1) (j 1)) ?_]
  intro a
  match a with
  | ⟨0, _⟩ => rfl
  | ⟨1, _⟩ => rfl

/-! ## The windows' blocks inside their arrays -/

/-- The printed index maps over the 20 grid points: windows 0 and 2 move down the rows with the point, window 1 stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point `t` is rows `5000 t …` of the array of summed messages. -/
theorem lblk_apply (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v59 : S100000x128.Idx → Elt Ideal .f32) i := by
  obtain ⟨e0, e1, -⟩ := idx_facts t
  unfold iblk3
  rw [View.read_apply]
  show V c main_v59 _ = V c main_v59 _
  congr 1
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- Window 1's block at every point is the whole bias row. -/
theorem bblk_apply (c : Dev nD) (t : Fin cfg3.N) (x : S1x128.Idx) :
    (iblk3 V c 1 t : Vec Ideal S1x128 .f32) x = (V c main_v60 : S1x128.Idx → Elt Ideal .f32) x := by
  obtain ⟨-, -, e2, e3, -⟩ := idx_facts t
  unfold iblk3
  rw [View.read_apply]
  show V c main_v60 _ = V c main_v60 _
  congr 1
  funext a
  apply Fin.ext
  match a with
  | ⟨0, _⟩ => show win3_1.index t 0 * 1 + 1 * (x 0).val = (x 0).val; rw [e2]; omega
  | ⟨1, _⟩ => show win3_1.index t 1 * 128 + 1 * (x 1).val = (x 1).val; rw [e3]; omega

/-- Entry `j` of the output window's block at point `t` sits at row `5000 t + j 0` … -/
theorem oemb_0 (t : Fin cfg3.N) (j : S5000x128.Idx) :
    ((((cfg3.win 2).blk t).view.emb j : S100000x128.Idx) 0).val = 5000 * t.val + (j 0).val := by
  obtain ⟨-, -, -, -, e4, -⟩ := idx_facts t
  show win3_2.index t 0 * 5000 + 1 * (j 0).val = _
  rw [e4]; omega
/-- … and column `j 1` of the result array. -/
theorem oemb_1 (t : Fin cfg3.N) (j : S5000x128.Idx) :
    ((((cfg3.win 2).blk t).view.emb j : S100000x128.Idx) 1).val = (j 1).val := by
  obtain ⟨-, -, -, -, -, e5⟩ := idx_facts t
  show win3_2.index t 1 * 128 + 1 * (j 1).val = _
  rw [e5]; omega

/-! ## What a point writes back, and the array after the region -/

/-- What point `t` writes back is block `t` of the bias step applied to the two operand arrays. -/
theorem flushed_eq (c : Dev nD) (t : Fin cfg3.N) :
    (dat3 V c).flushed 2 t = ((cfg3.win 2).blk t).view.read (Elt Ideal) (biasRelu (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  rw [View.read_apply]
  show k3_pay1 (iblk3 V c 0 t) (iblk3 V c 1 t) j = biasRelu (V c main_v59) (V c main_v60) (((cfg3.win 2).blk t).view.emb j)
  refine (pay_apply (iblk3 V c 0 t) (iblk3 V c 1 t) j).trans ?_
  unfold biasRelu
  refine congrArg (fun z : EReal => max z 0) ?_
  refine congrArg₂ (· + ·) ?_ ?_
  · exact lblk_apply V c t j (((cfg3.win 2).blk t).view.emb j) (oemb_0 t j) (oemb_1 t j)
  · refine (bblk_apply V c t (ix2 (0 : Fin 1) (j 1))).trans ?_
    show V c main_v60 _ = V c main_v60 _
    congr 1
    funext a
    apply Fin.ext
    match a with
    | ⟨0, _⟩ => rfl
    | ⟨1, _⟩ => exact (oemb_1 t j).symm

/-- An entry of the result array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every entry of the result array is in the block of the point its row falls to, `row / 5000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, e4, e5⟩ := idx_facts ⟨(i 0).val / 5000, hlt⟩
  refine ⟨⟨(i 0).val / 5000, hlt⟩, flush3_2 _, ?_⟩
  rw [mem_blk]
  intro a
  match a with
  | ⟨0, _⟩ =>
    show win3_2.index ⟨(i 0).val / 5000, hlt⟩ 0 * 5000 ≤ (i 0).val ∧ (i 0).val < win3_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ 1 * 128 ≤ (i 1).val ∧ (i 1).val < win3_2.index ⟨(i 0).val / 5000, hlt⟩ 1 * 128 + 128
    rw [e5]; omega

/-- After the region the result array is the bias step applied to the two operand arrays. -/
theorem final (c : Dev nD) :
    (dat3 V c).arrAt 2 cfg3.N = biasRelu (V c main_v59) (V c main_v60) :=
  (dat3 V c).arrAt_eq_of_cover 2 (biasRelu (V c main_v59) (V c main_v60)) (fun t _ => flushed_eq V c t) cover

end Cert.KernelIdeal.Br3

end
-- ==== Proof.Chain.lean ====
/-
  The kernel's program computes the reference's result.
  Region by region: the first product is the reference's first `dot_general` of the same input and weight; the
  stretch after it sums the first layer's messages as the reference does; the second region's bias step is the
  reference's "add the bias, maximum with zero"; the third region's product of that with the second weight is the
  reference's second `dot_general`; the next stretch sums the second layer's messages; and the last region's bias
  step is the reference's last stage. Each region's result array is the whole-array function of `Spec` of the arrays
  the region found (the region modules), the reference's dense stages are those same functions (`Stages`), and the
  host stretches are the same operations in both programs (`Host`).
-/
import proofs.«401020_j48936857370858_1_alg».proof.Proof.KRun
import proofs.«401020_j48936857370858_1_alg».proof.Proof.HostA
import proofs.«401020_j48936857370858_1_alg».proof.Proof.Stages
import proofs.«401020_j48936857370858_1_alg».proof.Proof.Mm0
import proofs.«401020_j48936857370858_1_alg».proof.Proof.Br1
import proofs.«401020_j48936857370858_1_alg».proof.Proof.Mm2
import proofs.«401020_j48936857370858_1_alg».proof.Proof.Br3

noncomputable section

namespace Cert.KernelIdeal.Chain

open Cert.KernelIdeal Cert.KernelIdeal.Gen Idealize.ShloMosaic Idealize.ShloMosaic.TcCoe Idealize.SL.Sem
open Cert.ReferenceIdeal.ReadP Cert.ReferenceIdeal.Stages
open Cert.Spec

variable (m : (ℓ : Loc nD τ sig) → Buf (Elt Ideal) ℓ) (ρ : Dev nD → PrngReg) (c : Dev nD)

/-- After the first region: the first layer's product. -/
theorem W4_v30 : W4 m ρ c (Proc.devRef .tc main_v30) = val_main_v30 (F := Ideal) (m ((c.tc : Thread nD τ).loc main_arg0)) (m ((c.tc : Thread nD τ).loc main_arg2)) := by
  refine (W4_arr m ρ c 2).trans ?_
  refine (Mm0.final (V3 m ρ) c).trans ?_
  show rowsByCols (W3 m ρ c (Proc.devRef .tc main_arg0)) (W3 m ρ c (Proc.devRef .tc main_arg2)) = _
  rw [Host.W3_arg0 m ρ c, Host.W3_arg2 m ρ c]
  exact (stage_v30 _ _).symm

/-- After the second region: the first layer's output. -/
theorem W6_v45 : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  refine (Br1.final (V5 m ρ) c).trans ?_
  show biasRelu (W5 m ρ c (Proc.devRef .tc main_v43)) (W5 m ρ c (Proc.devRef .tc main_v44)) = _
  rw [Host.W5_v43 m ρ c (W4_v30 m ρ c), Host.W5_v44 m ρ c]
  exact (stage_v47 _ _ _ _ _).symm

/-- After the third region: the second layer's product. -/
theorem W7_v46 : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Mm2.final (V6 m ρ) c).trans ?_
  show rowsByCols (W6 m ρ c (Proc.devRef .tc main_v45)) (W6 m ρ c (Proc.devRef .tc main_arg4)) = _
  rw [W6_v45 m ρ c, (Host.live_W6 m ρ c).a4]
  exact (stage_v48 _ _ _ _ _).symm

/-- After the last region: the reference's result. -/
theorem W9_v61 : W9 m ρ c (Proc.devRef .tc main_v61) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  refine (Br3.final (V8 m ρ) c).trans ?_
  show biasRelu (W8 m ρ c (Proc.devRef .tc main_v59)) (W8 m ρ c (Proc.devRef .tc main_v60)) = _
  rw [Host.W8_v59 m ρ c (W7_v46 m ρ c), Host.W8_v60 m ρ c]
  exact (stage_v65 _ _ _ _ _ _ _).symm

/-- The kernel's run, read: the result array ends at the reference's last stage of the arguments, the arguments
    unchanged. -/
theorem run : θ_run defs (onTc (τ := τ) (main (F := Ideal))) ⟨m, fun _ => 0, ρ⟩ (fun r => ∀ c : Dev nD,
      r.2.mem ((c.tc : Thread nD τ).loc main_v61) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_v61 m ρ c), (h c).2⟩) (Cert.KernelIdeal.Run.run_main m ρ)

end Cert.KernelIdeal.Chain

end
-- ==== Proof.lean ====
/-
  A two-layer graph convolution, kernel against reference, over the extended reals.
  Both programs normalise the edge list (self loops added, every edge weighted by the inverse square roots of its end
  points' degrees) with the same host operations. Per layer the reference multiplies the activations by the weight,
  gathers the product's rows along the edges, scales and sums them at the destinations, adds the bias and cuts the
  negative part off; the kernel's program does the product and the bias step in four tiled regions (20 row blocks of
  5000 rows each) and everything else with the reference's own host operations. Over the extended reals a row block
  of a product is the product's rows, the change of float format before the product is the identity and the zero
  accumulator adds nothing, so each region's result array is the reference's stage of the same operands, and the two
  programs end with the same array: no law of arithmetic beyond that is used, and the finiteness of the inputs is not
  needed. The idealization rewrote no operation, so there is nothing to preserve.
  The frames of the two kernel programs are the generated ones; the reference's frame is its run with the result dropped.
-/
import proofs.«401020_j48936857370858_1_alg».proof.Defs
import proofs.«401020_j48936857370858_1_alg».proof.Proof.Gen.Kernel
import proofs.«401020_j48936857370858_1_alg».proof.Proof.Gen.Kernel.Skeleton
import proofs.«401020_j48936857370858_1_alg».proof.Proof.Gen.Kernel.Launch
import proofs.«401020_j48936857370858_1_alg».proof.Proof.Gen.Kernel.Points
import proofs.«401020_j48936857370858_1_alg».proof.Proof.Gen.Kernel.Frame
import proofs.«401020_j48936857370858_1_alg».proof.Proof.Gen.KernelIdeal
import proofs.«401020_j48936857370858_1_alg».proof.Proof.Gen.KernelIdeal.Skeleton
import proofs.«401020_j48936857370858_1_alg».proof.Proof.Gen.KernelIdeal.Launch
import proofs.«401020_j48936857370858_1_alg».proof.Proof.Gen.KernelIdeal.Points
import proofs.«401020_j48936857370858_1_alg».proof.Proof.Gen.KernelIdeal.Frame
import proofs.«401020_j48936857370858_1_alg».proof.Proof.Gen.ReferenceIdeal
import proofs.«401020_j48936857370858_1_alg».proof.Proof.Gen.Pre_finite_inputs
import proofs.«401020_j48936857370858_1_alg».proof.Proof.RefRunP
import proofs.«401020_j48936857370858_1_alg».proof.Proof.RefReadP
import proofs.«401020_j48936857370858_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Chain.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
